-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000x32 : Shape := ⟨2, ![1600000, 32]⟩
abbrev S1600000 : Shape := ⟨1, ![1600000]⟩
abbrev S128x128 : Shape := ⟨2, ![128, 128]⟩
abbrev S160x128 : Shape := ⟨2, ![160, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S128x128 : S_.BroadcastsInDim S128x128 (![] : Fin 0 → Fin S128x128.rank)
  reducesTo_S128x128_S_d0_1 : S128x128.ReducesTo [0, 1] S_
  bcast_S_S160x128 : S_.BroadcastsInDim S160x128 (![] : Fin 0 → Fin S160x128.rank)
  reducesTo_S160x128_S_d0_1 : S160x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S160x128 1) : IVec S_ 1 :=
  let main_c_5 : IVec S_ 1 := constantI S_ 1 1#1
  let main_v17 : IVec S_ 1 := (fun x v => Host.reduce IntOp.andi x v reducesTo_S160x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : FVec F S1600000x32 .f32) (main_arg2 : IVec S1600000 32) (main_arg3 : IVec S1600000 32) (main_arg4 : FVec F S128x128 .f32) (main_arg5 : FVec F S160x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x32 .f32 := Host.absf main_arg1
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S160x128 .f32 := Host.absf main_arg5
  let main_cst_4 : FVec F S_ .f32 := constant S_ .f32 0x7F800000#32
  let main_v15 : FVec F S160x128 .f32 := broadcastInDim S160x128 ![] bcast_S_S160x128 main_cst_4
  let main_v16 : IVec S160x128 1 := cmpf .olt main_v14 main_v15
  fn_part1 (F := F) main_arg6 main_v13 main_v16
-- ==== Kernel.lean ====
abbrev S100000x128 : Shape := ⟨2, ![100000, 128]⟩
abbrev S1600000x32 : Shape := ⟨2, ![1600000, 32]⟩
abbrev S1600000 : Shape := ⟨1, ![1600000]⟩
abbrev S128x128 : Shape := ⟨2, ![128, 128]⟩
abbrev S160x128 : Shape := ⟨2, ![160, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000x32 : Shape := ⟨2, ![100000, 32]⟩
abbrev S100000 : Shape := ⟨1, ![100000]⟩
abbrev S100000x1 : Shape := ⟨2, ![100000, 1]⟩
abbrev S32x128 : Shape := ⟨2, ![32, 128]⟩
abbrev S4000x128 : Shape := ⟨2, ![4000, 128]⟩
abbrev S4000x32 : Shape := ⟨2, ![4000, 32]⟩
abbrev S4000x1 : Shape := ⟨2, ![4000, 1]⟩
abbrev S1x128 : Shape := ⟨2, ![1, 128]⟩

abbrev nBuf : Space → Nat
  | .hbm => 34
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S1600000x32, .f32⟩
  | .hbm, ⟨2, _⟩ => ⟨S1600000, .i32⟩
  | .hbm, ⟨3, _⟩ => ⟨S1600000, .i32⟩
  | .hbm, ⟨4, _⟩ => ⟨S128x128, .f32⟩
  | .hbm, ⟨5, _⟩ => ⟨S160x128, .f32⟩
  | .hbm, ⟨6, _⟩ => ⟨S128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S_, .f32⟩
  | .hbm, ⟨21, _⟩ => ⟨S100000x32, .f32⟩
  | .hbm, ⟨22, _⟩ => ⟨S1600000x1, .i32⟩
  | .hbm, ⟨23, _⟩ => ⟨S100000x32, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S100000x1, .f32⟩
  | .hbm, ⟨31, _⟩ => ⟨S128x128, .f32⟩
  | .hbm, ⟨32, _⟩ => ⟨S32x128, .f32⟩
  | .hbm, ⟨33, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x32, .f32⟩
  | .local _ .vmem, ⟨5, _⟩ => ⟨S4000x32, .f32⟩
  | .local _ .vmem, ⟨6, _⟩ => ⟨S4000x1, .f32⟩
  | .local _ .vmem, ⟨7, _⟩ => ⟨S4000x1, .f32⟩
  | .local _ .vmem, ⟨8, _⟩ => ⟨S128x128, .f32⟩
  | .local _ .vmem, ⟨9, _⟩ => ⟨S128x128, .f32⟩
  | .local _ .vmem, ⟨10, _⟩ => ⟨S32x128, .f32⟩
  | .local _ .vmem, ⟨11, _⟩ => ⟨S128, .f32⟩
  | .local _ .vmem, ⟨12, _⟩ => ⟨S4000x128, .f32⟩
  | .local _ .vmem, ⟨13, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_cst : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_cst_1 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_cst_2 : Ref sig .tc := ⟨.hbm, 24, rfl⟩
abbrev main_call0_v13 : Ref sig .tc := ⟨.hbm, 25, rfl⟩
abbrev main_call0_cst_3 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_call0_v17 : Ref sig .tc := ⟨.hbm, 30, rfl⟩
abbrev main_call0_v18 : Ref sig .tc := ⟨.hbm, 31, rfl⟩
abbrev main_call0_v19 : Ref sig .tc := ⟨.hbm, 32, rfl⟩
abbrev main_v0 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  slices_S160x128_S128x128_0_0 : S160x128.Slices ![0, 0] S128x128
  slices_S160x128_S32x128_128_0 : S160x128.Slices ![128, 0] S32x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S4000x1_S4000x128 : S4000x1.Broadcasts S4000x128
  inb_S4000x32_S4000x32_0_0 : ∀ a, (![0, 0] : Fin 2 → Nat) a + S4000x32.size a ≤ S4000x32.size a
  h_S4000x32 : 0 < S4000x32.numel
  shapeCasts_S4000x32_S4000x32 : S4000x32.ShapeCasts S4000x32
  broadcasts_S4000x1_S4000x32 : S4000x1.Broadcasts S4000x32
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x32_S1600000x1_S1600000x32_1_0_0_1_wf : ScatterDims.WF S100000x32 S1600000x1 S1600000x32 [1] [0] [0] 1
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  dot_S4000x32_S32x128_S4000x128_1_0_0_1_n_n_wf : DotDims.WF S4000x32 S32x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x32.size a ≤ S100000x32.size a
  hwx0_2 : ∀ i : grid0.Coords, EltTy.bits .f32 = 32 ∨ (Rect.block (s := S100000x32) S4000x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S100000x1.size a
  hwx0_3 : ∀ i : grid0.Coords, EltTy.bits .f32 = 32 ∨ (Rect.block (s := S100000x1) S4000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x128.size a ≤ S32x128.size a
  hwx0_6 : ∀ i : grid0.Coords, EltTy.bits .f32 = 32 ∨ (Rect.block (s := S32x128) S32x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x128.size a ≤ S100000x128.size a
  hwx0_8 : ∀ i : grid0.Coords, EltTy.bits .f32 = 32 ∨ (Rect.block (s := S100000x128) S4000x128.size (cc0_transform_8 i) (hinb0_8 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x32_S32x128_S4000x128_1_0_0_1_n_n : DotDims S4000x32 S32x128 S4000x128 where
  lhsContracting := [1]
  rhsContracting := [0]
  lhsNonContracting := [0]
  rhsNonContracting := [1]
  lhsBatch := []
  rhsBatch := []
  wf := dot_S4000x32_S32x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v9) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v12) S4000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v17) S4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v18) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v19) S32x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S4000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000x32 : Shape := ⟨2, ![1600000, 32]⟩
abbrev S1600000 : Shape := ⟨1, ![1600000]⟩
abbrev S128x128 : Shape := ⟨2, ![128, 128]⟩
abbrev S160x128 : Shape := ⟨2, ![160, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000x32 : Shape := ⟨2, ![100000, 32]⟩
abbrev S100000 : Shape := ⟨1, ![100000]⟩
abbrev S100000x1 : Shape := ⟨2, ![100000, 1]⟩
abbrev S100000x160 : Shape := ⟨2, ![100000, 160]⟩
abbrev S1x128 : Shape := ⟨2, ![1, 128]⟩

abbrev nBuf : Space → Nat
  | .hbm => 45
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000x32, .f32⟩
  | .hbm, ⟨2, _⟩ => ⟨S1600000, .i32⟩
  | .hbm, ⟨3, _⟩ => ⟨S1600000, .i32⟩
  | .hbm, ⟨4, _⟩ => ⟨S128x128, .f32⟩
  | .hbm, ⟨5, _⟩ => ⟨S160x128, .f32⟩
  | .hbm, ⟨6, _⟩ => ⟨S128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S_, .f32⟩
  | .hbm, ⟨21, _⟩ => ⟨S100000x32, .f32⟩
  | .hbm, ⟨22, _⟩ => ⟨S1600000x1, .i32⟩
  | .hbm, ⟨23, _⟩ => ⟨S100000x32, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S100000x32, .f32⟩
  | .hbm, ⟨37, _⟩ => ⟨S100000x32, .f32⟩
  | .hbm, ⟨38, _⟩ => ⟨S100000x160, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S100000x1_S100000x32_0_1 : S100000x1.BroadcastsInDim S100000x32 (![0, 1] : Fin 2 → Fin S100000x32.rank)
  concatenates_S100000x128_S100000x32_S100000x160_d1 : Shape.Concatenates [S100000x128, S100000x32] S100000x160 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x32_S1600000x1_S1600000x32_1_0_0_1_wf : ScatterDims.WF S100000x32 S1600000x1 S1600000x32 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x160_S160x128_S100000x128_1_0_0_1_n_n_wf : DotDims.WF S100000x160 S160x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x160_S160x128_S100000x128_1_0_0_1_n_n : DotDims S100000x160 S160x128 S100000x128 where
  lhsContracting := [1]
  rhsContracting := [0]
  lhsNonContracting := [0]
  rhsNonContracting := [1]
  lhsBatch := []
  rhsBatch := []
  wf := dot_S100000x160_S160x128_S100000x128_1_0_0_1_n_n_wf

class Facts : Prop extends Facts₀ where

variable [Facts]
-- ==== Proof.Spec.lean ====
/-
  The layer's result as ONE function of its arrays, and the two laws that join the two programs.

  A node `p` has input features `feat p ·`, the sum `ss p ·` of its in-neighbours' features, the sum `se p ·` of its
  in-edges' features and its in-degree `dg p`. With `r p = 1 / max (dg p) 1` the reciprocal of the clamped degree, output
  column `q` of node `p` is

      Σ_k feat p k · Wself k q  +  ( Σ_{k<128} (ss p k · r p) · Wneigh k q  +  Σ_{k<32} (se p k · r p) · Wneigh (128+k) q )  +  bias q.

  One program multiplies the sums by the reciprocal `r p`; the other divides them by `max (dg p) 1` and contracts the
  160 joined columns in one sum. The laws: division by a divisor that is not zero IS the product with its reciprocal on
  every extended real (`mul_recip`; the clamped degree is at least one, so it is never zero, whatever `dg p` is), and a
  sum over 160 indices is the sum over the first 128 plus the sum over the last 32 (`sum_split`). Neither needs the
  summands to be finite.
-/
import Idealize.ShloMosaic.PureOps.Ideal
import Idealize.ShloMosaic.PureOps.Ideal.Laws
import Idealize.ShloMosaic.Lib.IdealHost
import Idealize.ShloMosaic.Lib.ValueIdx
import Mathlib.Algebra.BigOperators.Fin

open scoped BigOperators

noncomputable section

namespace Cert.EdgeSage

open Idealize.ShloMosaic Idealize.ShloMosaic.ValueIdx

/-! ## The reciprocal of the clamped degree -/

/-- The f32 word of `1.0` read as an extended real. -/
abbrev one : EReal := Ideal.ofBits .f32 0x3F800000#32

/-- It is the number one. -/
theorem one_eq : one = 1 := Ideal.ofBits_one_f32

/-- The reciprocal of a degree clamped below at one: `1 / max d 1`. -/
def recip (d : EReal) : EReal := Ideal.div one (max d one)

/-- A degree clamped below at one is positive, so it is not zero. -/
theorem max_one_ne_zero (d : EReal) : max d one ≠ 0 := by
  have h1 : (0 : EReal) < one := by rw [one_eq]; exact zero_lt_one
  exact (lt_of_lt_of_le h1 (le_max_right d one)).ne'

/-- Multiplying by the reciprocal of the clamped degree is dividing by the clamped degree, on every extended real:
    off zero the quotient is the product with the inverse, and the quotient of one is the inverse itself. -/
theorem mul_recip (x d : EReal) : x * recip d = Ideal.div x (max d one) := by
  unfold recip Ideal.div
  rw [if_neg (max_one_ne_zero d), if_neg (max_one_ne_zero d)]
  rw [show (one : EReal) * (max d one)⁻¹ = (max d one)⁻¹ from by rw [one_eq, one_mul]]

/-! ## A sum over the joined columns -/

/-- A sum over 160 indices is the sum over the first 128 plus the sum over the last 32. -/
theorem sum_split (f : Fin 160 → EReal) :
    ∑ k : Fin 160, f k
      = (∑ k : Fin 128, f ⟨k.val, Nat.lt_of_lt_of_le k.isLt (by decide)⟩)
        + ∑ k : Fin 32, f ⟨128 + k.val, by have := k.isLt; omega⟩ :=
  Fin.sum_univ_add (a := 128) (b := 32) f

/-! ## The result -/

abbrev SNodes128 : Shape := ⟨2, ![100000, 128]⟩
abbrev SNodes32 : Shape := ⟨2, ![100000, 32]⟩
abbrev SNodes : Shape := ⟨1, ![100000]⟩
abbrev SW128 : Shape := ⟨2, ![128, 128]⟩
abbrev SW160 : Shape := ⟨2, ![160, 128]⟩
abbrev SBias : Shape := ⟨1, ![128]⟩

/-- Output column `q` of node `p`. -/
def combineAt (feat ss : SNodes128.Idx → EReal) (se : SNodes32.Idx → EReal) (dg : SNodes.Idx → EReal)
    (wself : SW128.Idx → EReal) (wneigh : SW160.Idx → EReal) (bias : SBias.Idx → EReal) (p : Fin 100000) (q : Fin 128) : EReal :=
  ((∑ k : Fin 128, feat (ix2 p k) * wself (ix2 k q))
    + ((∑ k : Fin 128, (ss (ix2 p k) * recip (dg (ix1 p)))
          * wneigh (ix2 (⟨k.val, Nat.lt_of_lt_of_le k.isLt (by decide)⟩ : Fin 160) q))
      + ∑ k : Fin 32, (se (ix2 p k) * recip (dg (ix1 p)))
          * wneigh (ix2 (⟨128 + k.val, by have := k.isLt; omega⟩ : Fin 160) q)))
  + bias (ix1 q)

/-- The whole result array. -/
def combine (feat ss : SNodes128.Idx → EReal) (se : SNodes32.Idx → EReal) (dg : SNodes.Idx → EReal)
    (wself : SW128.Idx → EReal) (wneigh : SW160.Idx → EReal) (bias : SBias.Idx → EReal) : SNodes128.Idx → EReal :=
  fun i => combineAt feat ss se dg wself wneigh bias ⟨(i 0).val, (i 0).isLt⟩ ⟨(i 1).val, (i 1).isLt⟩

end Cert.EdgeSage

end
-- ==== Proof.RefSide.lean ====
/-
  The reference's result, index by index, is `combine` of the arrays it computes on the way: the neighbour-feature
  sums, the edge-feature sums and the in-degrees (its three scatter-adds), and the weights and bias as given.

  The reference divides both sums by the clamped degree, joins the two quotients along the columns into 160 columns and
  contracts them with the 160 rows of the neighbour weights in one sum. Read at an entry: the 160-term sum splits into
  its first 128 and last 32 terms, a joined column below 128 is a column of the first quotient and one from 128 on a column
  of the second, and each quotient by the clamped degree is the product with its reciprocal.
-/
import proofs.«430597_j26053271617546_3_alg».proof.Proof.Gen.ReferenceIdeal.Read
import proofs.«430597_j26053271617546_3_alg».proof.Proof.Spec
import Idealize.ShloMosaic.Lib.Pipeline.Value
import Idealize.ShloMosaic.Lib.ValueIdx
import Idealize.ShloMosaic.Lib.IdealHost

open scoped BigOperators

noncomputable section

namespace Cert.ReferenceIdeal.RefValue

open Cert.ReferenceIdeal Cert.ReferenceIdeal.Read Idealize.ShloMosaic Idealize.ShloMosaic.ValueIdx Cert.EdgeSage

variable (x0 : (⟨S100000x128, .f32⟩ : BufTy).Contents (Elt Ideal)) (x1 : (⟨S1600000x32, .f32⟩ : BufTy).Contents (Elt Ideal))
  (x2 x3 : (⟨S1600000, .i32⟩ : BufTy).Contents (Elt Ideal)) (x4 : (⟨S128x128, .f32⟩ : BufTy).Contents (Elt Ideal))
  (x5 : (⟨S160x128, .f32⟩ : BufTy).Contents (Elt Ideal)) (x6 : (⟨S128, .f32⟩ : BufTy).Contents (Elt Ideal))

/-- The divisor of the neighbour-feature sums at row `p`, any column: the degree of `p` clamped below at one. -/
theorem clamp128 (p : Fin 100000) (k : Fin 128) :
    val_main_v20 (F := Ideal) x3 (ix2 p k) = max (val_main_v16 (F := Ideal) x3 (ix1 p) : EReal) one := by
  rw [val_main_v20_apply, val_main_v19_apply, val_main_v18_apply, val_main_v17_apply, val_main_cst_4_apply]
  have e : idx_main_v19 (idx_main_v20 (ix2 p k)) = ix1 p := funext fun a => Fin.ext (by match a with | ⟨0, _⟩ => rfl)
  rw [e]
  rfl

/-- The divisor of the edge-feature sums at row `p`, any column: the same clamped degree. -/
theorem clamp32 (p : Fin 100000) (k : Fin 32) :
    val_main_v22 (F := Ideal) x3 (ix2 p k) = max (val_main_v16 (F := Ideal) x3 (ix1 p) : EReal) one := by
  rw [val_main_v22_apply, val_main_v19_apply, val_main_v18_apply, val_main_v17_apply, val_main_cst_4_apply]
  have e : idx_main_v19 (idx_main_v22 (ix2 p k)) = ix1 p := funext fun a => Fin.ext (by match a with | ⟨0, _⟩ => rfl)
  rw [e]
  rfl

/-- A joined column below 128 is that column of the mean neighbour features. -/
theorem joined_left (p : Fin 100000) (k : Fin 128) :
    val_main_v24 (F := Ideal) x0 x1 x2 x3 (ix2 p (⟨k.val, Nat.lt_of_lt_of_le k.isLt (by decide)⟩ : Fin 160))
      = val_main_v21 (F := Ideal) x0 x2 x3 (ix2 p k) := by
  unfold val_main_v24
  refine concatenate_pair_apply_left (t := S100000x160) (s₁ := S100000x128) (s₂ := S100000x32) 1 _ _ _
    (ix2 p (⟨k.val, Nat.lt_of_lt_of_le k.isLt (by decide)⟩ : Fin 160)) rfl (ix2 p k) (fun b => ?_)
  match b with
  | ⟨0, _⟩ => show p.val = p.val; rfl
  | ⟨1, _⟩ => show k.val = k.val; rfl

/-- A joined column `128 + k` is column `k` of the mean edge features. -/
theorem joined_right (p : Fin 100000) (k : Fin 32) :
    val_main_v24 (F := Ideal) x0 x1 x2 x3 (ix2 p (⟨128 + k.val, by have := k.isLt; omega⟩ : Fin 160))
      = val_main_v23 (F := Ideal) x1 x3 (ix2 p k) := by
  unfold val_main_v24
  refine concatenate_pair_apply_right (t := S100000x160) (s₁ := S100000x128) (s₂ := S100000x32) 1 _ _ _
    (ix2 p (⟨128 + k.val, by have := k.isLt; omega⟩ : Fin 160)) rfl rfl (ix2 p k) (fun b hb => ?_) ?_
  · match b with
    | ⟨0, _⟩ => show p.val = p.val; rfl
    | ⟨1, _⟩ => exact absurd (Fin.ext rfl) hb
  · show k.val + 128 = 128 + k.val
    omega

/-- The mean neighbour feature: the sum times the reciprocal of the clamped degree. -/
theorem mean_src (p : Fin 100000) (k : Fin 128) :
    val_main_v24 (F := Ideal) x0 x1 x2 x3 (ix2 p (⟨k.val, Nat.lt_of_lt_of_le k.isLt (by decide)⟩ : Fin 160))
      = (val_main_v9 (F := Ideal) x0 x2 x3 (ix2 p k) : EReal) * recip (val_main_v16 (F := Ideal) x3 (ix1 p)) := by
  rw [joined_left, val_main_v21_apply, clamp128, mul_recip]
  rfl

/-- The mean edge feature: the sum times the reciprocal of the clamped degree. -/
theorem mean_edge (p : Fin 100000) (k : Fin 32) :
    val_main_v24 (F := Ideal) x0 x1 x2 x3 (ix2 p (⟨128 + k.val, by have := k.isLt; omega⟩ : Fin 160))
      = (val_main_v12 (F := Ideal) x1 x3 (ix2 p k) : EReal) * recip (val_main_v16 (F := Ideal) x3 (ix1 p)) := by
  rw [joined_right, val_main_v23_apply, clamp32, mul_recip]
  rfl

/-- THE REFERENCE IS `combine`. -/
theorem ref_is_combine :
    val_main_v30 (F := Ideal) x0 x1 x2 x3 x4 x5 x6
      = combine x0 (val_main_v9 (F := Ideal) x0 x2 x3) (val_main_v12 (F := Ideal) x1 x3) (val_main_v16 (F := Ideal) x3) x4 x5 x6 := by
  funext i
  obtain ⟨p, q, rfl⟩ : ∃ (p : Fin 100000) (q : Fin 128), i = ix2 p q := ⟨i 0, i 1, eq_ix2 i⟩
  have eL25 : ∀ k : Fin 128, lidx_main_v25 (ix2 p q) k = ix2 p k := fun k =>
    funext fun a => Fin.ext (by match a with | ⟨0, _⟩ => rfl | ⟨1, _⟩ => rfl)
  have eR25 : ∀ k : Fin 128, ridx_main_v25 (ix2 p q) k = ix2 k q := fun k =>
    funext fun a => Fin.ext (by match a with | ⟨0, _⟩ => rfl | ⟨1, _⟩ => rfl)
  have eL26 : ∀ k : Fin 160, lidx_main_v26 (ix2 p q) k = ix2 p k := fun k =>
    funext fun a => Fin.ext (by match a with | ⟨0, _⟩ => rfl | ⟨1, _⟩ => rfl)
  have eR26 : ∀ k : Fin 160, ridx_main_v26 (ix2 p q) k = ix2 k q := fun k =>
    funext fun a => Fin.ext (by match a with | ⟨0, _⟩ => rfl | ⟨1, _⟩ => rfl)
  have eB : idx_main_v28 (idx_main_v29 (ix2 p q)) = ix1 q :=
    funext fun a => Fin.ext (by match a with | ⟨0, _⟩ => rfl)
  rw [val_main_v30_apply, val_main_v27_apply, val_main_v25_apply, val_main_v26_apply, val_main_v29_apply,
    val_main_v28_apply, sum_split, eB]
  simp only [eL25, eR25, eL26, eR26, mean_src, mean_edge]
  rfl

end Cert.ReferenceIdeal.RefValue

end
-- ==== Proof.Payload.lean ====
/-
  What one grid step stores, entry by entry.

  A step holds 4000 nodes: their features `x`, neighbour-feature sums `s`, edge-feature sums `e` and degrees `d` (one
  column), with the three weight blocks and the bias whole. It stores, at node `p` and output column `q`,

      Σ_k x p k · Wself k q + ( Σ_{k<128} (s p k · r p) · Wfeat k q + Σ_{k<32} (e p k · r p) · Wedge k q ) + bias q,

  where `r p = 1 / max (d p) 1`. The changes of float format before each matrix product are the identity on extended
  reals; each matrix product into a zero accumulator is the plain sum of products; the degree column and the bias row
  are broadcast along the other axis.
-/
import proofs.«430597_j26053271617546_3_alg».proof.Proof.Gen.KernelIdeal.Skeleton
import proofs.«430597_j26053271617546_3_alg».proof.Proof.Spec
import Idealize.ShloMosaic.Lib.Pipeline.Value
import Idealize.ShloMosaic.Lib.ValueIdx
import Idealize.ShloMosaic.Lib.ValueLayout
import Idealize.ShloMosaic.PureOps.Ideal.Laws

open scoped BigOperators

noncomputable section

namespace Cert.KernelIdeal.Body

open Cert.KernelIdeal Cert.KernelIdeal.Gen Idealize.ShloMosaic Idealize.ShloMosaic.ValueIdx Cert.EdgeSage

/-! ## One column broadcast over many -/

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two matrix products at an entry -/

theorem lhs_mm128_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_mm128_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_mm128_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_mm128_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The matrix unit's product of a `4000 × 128` block with a `128 × 128` block into a zero accumulator, at entry `(p, q)`:
    the sum over `k` of row `p` of the left times column `q` of the right. -/
theorem mm128_apply {φ₁ φ₂ : FTy} (l : FVec Ideal S4000x128 φ₁) (r : FVec Ideal S128x128 φ₂) (p : Fin 4000) (q : Fin 128) :
    matmul dot_S4000x128_S128x128_S4000x128_1_0_0_1_n_n none l r (constant S4000x128 .f32 0x00000000#32) (ix2 p q)
      = ∑ k : Fin 128, (l (ix2 p k) : EReal) * r (ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_mm128_0 _ _
    | ⟨1, _⟩ => exact (lhs_mm128_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_mm128_0 _ _).trans hk
    | ⟨1, _⟩ => exact rhs_mm128_1 _ _)
  rw [el, er]

theorem lhs_mm32_0 (i : S4000x128.Idx) (q : dot_S4000x32_S32x128_S4000x128_1_0_0_1_n_n.contr.Idx) :
    (dot_S4000x32_S32x128_S4000x128_1_0_0_1_n_n.lhsIdx i q 0).val = (i 0).val := by
  unfold DotDims.lhsIdx
  rw [dif_neg (show ¬(0 : Fin S4000x32.rank) ∈ dot_S4000x32_S32x128_S4000x128_1_0_0_1_n_n.lhsBatch by decide), dif_pos (show (0 : Fin S4000x32.rank) ∈ dot_S4000x32_S32x128_S4000x128_1_0_0_1_n_n.lhsNonContracting by decide)]
  rfl
theorem lhs_mm32_1 (i : S4000x128.Idx) (q : dot_S4000x32_S32x128_S4000x128_1_0_0_1_n_n.contr.Idx) :
    (dot_S4000x32_S32x128_S4000x128_1_0_0_1_n_n.lhsIdx i q 1).val = (q ⟨0, by decide⟩).val :=
  dot_S4000x32_S32x128_S4000x128_1_0_0_1_n_n.lhsIdx_val_of_single rfl i q
theorem rhs_mm32_0 (i : S4000x128.Idx) (q : dot_S4000x32_S32x128_S4000x128_1_0_0_1_n_n.contr.Idx) :
    (dot_S4000x32_S32x128_S4000x128_1_0_0_1_n_n.rhsIdx i q 0).val = (q ⟨0, by decide⟩).val :=
  dot_S4000x32_S32x128_S4000x128_1_0_0_1_n_n.rhsIdx_val_of_single rfl i q
theorem rhs_mm32_1 (i : S4000x128.Idx) (q : dot_S4000x32_S32x128_S4000x128_1_0_0_1_n_n.contr.Idx) :
    (dot_S4000x32_S32x128_S4000x128_1_0_0_1_n_n.rhsIdx i q 1).val = (i 1).val := by
  unfold DotDims.rhsIdx
  rw [dif_neg (show ¬(1 : Fin S32x128.rank) ∈ dot_S4000x32_S32x128_S4000x128_1_0_0_1_n_n.rhsBatch by decide), dif_pos (show (1 : Fin S32x128.rank) ∈ dot_S4000x32_S32x128_S4000x128_1_0_0_1_n_n.rhsNonContracting by decide)]
  rfl

/-- The matrix unit's product of a `4000 × 32` block with a `32 × 128` block into a zero accumulator, at entry `(p, q)`:
    the sum over `k` of row `p` of the left times column `q` of the right. -/
theorem mm32_apply {φ₁ φ₂ : FTy} (l : FVec Ideal S4000x32 φ₁) (r : FVec Ideal S32x128 φ₂) (p : Fin 4000) (q : Fin 128) :
    matmul dot_S4000x32_S32x128_S4000x128_1_0_0_1_n_n none l r (constant S4000x128 .f32 0x00000000#32) (ix2 p q)
      = ∑ k : Fin 32, (l (ix2 p k) : EReal) * r (ix2 k q) := by
  simp only [matmul]
  rw [Ideal.matmul_constant_zero_apply, ← Equiv.sum_comp (ValueIdx.contrEquiv1 dot_S4000x32_S32x128_S4000x128_1_0_0_1_n_n 32 rfl rfl).symm]
  refine Finset.sum_congr rfl fun k _ => ?_
  have hk := ValueIdx.contrEquiv1_symm_val dot_S4000x32_S32x128_S4000x128_1_0_0_1_n_n 32 rfl rfl k
  have el : dot_S4000x32_S32x128_S4000x128_1_0_0_1_n_n.lhsIdx (ix2 p q) ((ValueIdx.contrEquiv1 dot_S4000x32_S32x128_S4000x128_1_0_0_1_n_n 32 rfl rfl).symm k) = ix2 p k := funext fun a => Fin.ext (by
    match a with
    | ⟨0, _⟩ => exact lhs_mm32_0 _ _
    | ⟨1, _⟩ => exact (lhs_mm32_1 _ _).trans hk)
  have er : dot_S4000x32_S32x128_S4000x128_1_0_0_1_n_n.rhsIdx (ix2 p q) ((ValueIdx.contrEquiv1 dot_S4000x32_S32x128_S4000x128_1_0_0_1_n_n 32 rfl rfl).symm k) = ix2 k q := funext fun a => Fin.ext (by
    match a with
    | ⟨0, _⟩ => exact (rhs_mm32_0 _ _).trans hk
    | ⟨1, _⟩ => exact rhs_mm32_1 _ _)
  rw [el, er]

/-! ## The stored value at an entry -/

/-- Entry `(p, q)` of what a step stores, from the blocks it loads. -/
theorem payload_at (v0 : Vec Ideal S4000x1 .f32) (v6 v7 : Vec Ideal S4000x128 .f32) (v11 : Vec Ideal S4000x32 .f32)
    (v16 v21 : Vec Ideal S128x128 .f32) (v24 : Vec Ideal S32x128 .f32) (v31 : Vec Ideal S128 .f32) (p : Fin 4000) (q : Fin 128) :
    k0_pay1 v0 v6 v7 v11 v16 v21 v24 v31 (ix2 p q)
      = ((∑ k : Fin 128, (v6 (ix2 p k) : EReal) * v16 (ix2 k q))
          + ((∑ k : Fin 128, ((v7 (ix2 p k) : EReal) * recip (v0 (ix2 p (0 : Fin 1)))) * v21 (ix2 k q))
            + ∑ k : Fin 32, ((v11 (ix2 p k) : EReal) * recip (v0 (ix2 p (0 : Fin 1)))) * v24 (ix2 k q)))
        + v31 (ix1 q) := by
  unfold k0_pay1
  simp only [addf_apply, mulf_apply, mm128_apply, mm32_apply, truncf_apply, shapeCast_self, broadcastTo_a1_ab_apply,
    divf_apply, maximumf_apply, broadcast_apply, broadcastTo_1b_ab_apply, shapeCast_a_1a_apply]
  rfl

/-- Entry `(p, q)` of what a step stores is output column `q` of node `P`, when the step's blocks hold row `P` of the
    node arrays in their row `p`, and the weight blocks and the bias hold the weights and the bias. -/
theorem step_is_combine (feat ss : SNodes128.Idx → EReal) (se : SNodes32.Idx → EReal) (dg : SNodes.Idx → EReal)
    (wself : SW128.Idx → EReal) (wneigh : SW160.Idx → EReal) (bias : SBias.Idx → EReal)
    (x0 x1 : Vec Ideal S4000x128 .f32) (x2 : Vec Ideal S4000x32 .f32) (x3 : Vec Ideal S4000x1 .f32)
    (x4 x5 : Vec Ideal S128x128 .f32) (x6 : Vec Ideal S32x128 .f32) (x7 : Vec Ideal S128 .f32)
    (p : Fin 4000) (q : Fin 128) (P : Fin 100000)
    (h0 : ∀ k : Fin 128, (x0 (ix2 p k) : EReal) = feat (ix2 P k))
    (h1 : ∀ k : Fin 128, (x1 (ix2 p k) : EReal) = ss (ix2 P k))
    (h2 : ∀ k : Fin 32, (x2 (ix2 p k) : EReal) = se (ix2 P k))
    (h3 : (x3 (ix2 p (0 : Fin 1)) : EReal) = dg (ix1 P))
    (h4 : ∀ k : Fin 128, (x4 (ix2 k q) : EReal) = wself (ix2 k q))
    (h5 : ∀ k : Fin 128, (x5 (ix2 k q) : EReal) = wneigh (ix2 (⟨k.val, Nat.lt_of_lt_of_le k.isLt (by decide)⟩ : Fin 160) q))
    (h6 : ∀ k : Fin 32, (x6 (ix2 k q) : EReal) = wneigh (ix2 (⟨128 + k.val, by have := k.isLt; omega⟩ : Fin 160) q))
    (h7 : (x7 (ix1 q) : EReal) = bias (ix1 q)) :
    k0_pay1 x3 x0 x1 x2 x4 x5 x6 x7 (ix2 p q) = combineAt feat ss se dg wself wneigh bias P q := by
  rw [payload_at]
  unfold combineAt
  simp only [h0, h1, h2, h3, h4, h5, h6, h7]

end Cert.KernelIdeal.Body

end
-- ==== Proof.HostVals.lean ====
/-
  What the grid finds in the five arrays the surrounding program computes before it: the neighbour-feature sums, the
  edge-feature sums and the in-degrees (three scatter-adds over the destination indices, the first of gathered source
  features), and the two row ranges of the neighbour weights (rows 0 to 127 and rows 128 to 159).

  The two programs compute the three scatter-adds by the same operations of the same arguments, so the arrays the grid
  finds are the arrays the other program divides: they are named here by that program's own terms. The degree array
  arrives as one column, and the weight ranges as slices; each is read at an entry.
-/
import proofs.«430597_j26053271617546_3_alg».proof.Proof.Gen.KernelIdeal.Frame
import proofs.«430597_j26053271617546_3_alg».proof.Proof.Gen.ReferenceIdeal.Read
import Idealize.ShloMosaic.Lib.StableHlo.Run
import Idealize.ShloMosaic.Lib.Pipeline.Value
import Idealize.ShloMosaic.Lib.ValueIdx

noncomputable section

namespace Cert.KernelIdeal.HostVals

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The neighbour-feature sums: the scatter-add, by destination, of the source nodes' gathered features. -/
theorem V_sumSrc (c : Dev nD) :
    (V m c main_call0_v9 : S100000x128.Idx → EReal)
      = Cert.ReferenceIdeal.Read.val_main_v9 (F := Ideal) (m ((c : Thread nD τ).loc main_arg0)) (m ((c : Thread nD τ).loc main_arg2)) (m ((c : Thread nD τ).loc main_arg3)) := by
  dsimp only [Gen.V, Gen.hostOps0]
  after_results
  rfl

/-- The edge-feature sums: the scatter-add, by destination, of the edges' features. -/
theorem V_sumEdge (c : Dev nD) :
    (V m c main_call0_v12 : S100000x32.Idx → EReal)
      = Cert.ReferenceIdeal.Read.val_main_v12 (F := Ideal) (m ((c : Thread nD τ).loc main_arg1)) (m ((c : Thread nD τ).loc main_arg3)) := by
  dsimp only [Gen.V, Gen.hostOps0]
  after_results
  rfl

/-- The in-degrees: the scatter-add, by destination, of ones. -/
theorem V_deg (c : Dev nD) :
    (V m c main_call0_v16 : S100000.Idx → EReal)
      = Cert.ReferenceIdeal.Read.val_main_v16 (F := Ideal) (m ((c : Thread nD τ).loc main_arg3)) := by
  dsimp only [Gen.V, Gen.hostOps0]
  after_results
  rfl

/-- The degree column is the in-degrees with a unit axis added. -/
theorem V_degCol (c : Dev nD) :
    (V m c main_call0_v17 : S100000x1.Idx → EReal)
      = broadcastInDim S100000x1 ![0] bcast_S100000_S100000x1_0 (V m c main_call0_v16 : S100000.Idx → EReal) := by
  dsimp only [Gen.V, Gen.hostOps0]
  after_results
  rfl

/-- Row `p` of the degree column is the degree of node `p`. -/
theorem V_degCol_at (c : Dev nD) (p : Fin 100000) :
    (V m c main_call0_v17 : S100000x1.Idx → EReal) (ix2 p (0 : Fin 1))
      = Cert.ReferenceIdeal.Read.val_main_v16 (F := Ideal) (m ((c : Thread nD τ).loc main_arg3)) (ix1 p) := by
  rw [V_degCol, V_deg]
  refine broadcastInDim_apply _ bcast_S100000_S100000x1_0 _ (ix2 p (0 : Fin 1)) (ix1 p) (fun a => ?_)
  match a with
  | ⟨0, _⟩ => show p.val = if (100000 : Nat) = 1 then 0 else p.val; rw [if_neg (by decide)]

/-- The weights of the neighbour features: rows 0 to 127 of the neighbour weights. -/
theorem V_wFeat (c : Dev nD) :
    (V m c main_call0_v18 : S128x128.Idx → EReal)
      = extractStridedSlice S128x128 ![0, 0] (m ((c : Thread nD τ).loc main_arg5)) slices_S160x128_S128x128_0_0 := by
  dsimp only [Gen.V, Gen.hostOps0]
  after_results
  rfl

/-- Its entry `(k, q)` is entry `(k, q)` of the neighbour weights. -/
theorem V_wFeat_at (c : Dev nD) (k : Fin 128) (q : Fin 128) :
    (V m c main_call0_v18 : S128x128.Idx → EReal) (ix2 k q)
      = ((m ((c : Thread nD τ).loc main_arg5)) : S160x128.Idx → EReal) (ix2 (⟨k.val, Nat.lt_of_lt_of_le k.isLt (by decide)⟩ : Fin 160) q) := by
  rw [V_wFeat]
  refine extractStridedSlice_apply _ _ _ (ix2 k q) _ (fun a => ?_)
  match a with
  | ⟨0, _⟩ => show k.val = 0 + k.val; omega
  | ⟨1, _⟩ => show q.val = 0 + q.val; omega

/-- The weights of the edge features: rows 128 to 159 of the neighbour weights. -/
theorem V_wEdge (c : Dev nD) :
    (V m c main_call0_v19 : S32x128.Idx → EReal)
      = extractStridedSlice S32x128 ![128, 0] (m ((c : Thread nD τ).loc main_arg5)) slices_S160x128_S32x128_128_0 := by
  dsimp only [Gen.V, Gen.hostOps0]
  after_results
  rfl

/-- Its entry `(k, q)` is entry `(128 + k, q)` of the neighbour weights. -/
theorem V_wEdge_at (c : Dev nD) (k : Fin 32) (q : Fin 128) :
    (V m c main_call0_v19 : S32x128.Idx → EReal) (ix2 k q)
      = ((m ((c : Thread nD τ).loc main_arg5)) : S160x128.Idx → EReal) (ix2 (⟨128 + k.val, by have := k.isLt; omega⟩ : Fin 160) q) := by
  rw [V_wEdge]
  refine extractStridedSlice_apply _ _ _ (ix2 k q) _ (fun a => ?_)
  match a with
  | ⟨0, _⟩ => show 128 + k.val = 128 + k.val; rfl
  | ⟨1, _⟩ => show q.val = 0 + q.val; omega

end Cert.KernelIdeal.HostVals

end
-- ==== Proof.Blocks.lean ====
/-
  From the grid's 25 steps to the whole result array.

  Step `t` holds nodes `4000 t … 4000 t + 3999`: rows `4000 t + p` of the features, of the neighbour-feature sums, of the
  edge-feature sums and of the degree column are row `p` of its blocks, and every step holds the three weight blocks
  and the bias whole. So what step `t` stores at `(p, q)` is output column `q` of node `4000 t + p`, which is what
  `combine` of the arrays says there: step `t` writes back block `t` of that one array. Node `n` is in step `n / 4000`,
  so the 25 blocks cover the array, and after the run the result array is `combine` of the launch contents.
-/
import proofs.«430597_j26053271617546_3_alg».proof.Proof.Gen.KernelIdeal.Value
import proofs.«430597_j26053271617546_3_alg».proof.Proof.Gen.ReferenceIdeal.Read
import proofs.«430597_j26053271617546_3_alg».proof.Proof.Payload
import proofs.«430597_j26053271617546_3_alg».proof.Proof.HostVals
import proofs.«430597_j26053271617546_3_alg».proof.Proof.Spec
import Idealize.ShloMosaic.Lib.Pipeline.Value
import Idealize.ShloMosaic.Lib.ValueIdx

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.ValueIdx Cert.EdgeSage
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The block each window holds at step `t`, decided over the 25 steps: the four node arrays and the result move with
    the step along the rows; the weights and the bias stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

/-- The result array as ONE function of the launch contents. -/
abbrev result (c : Dev nD) : S100000x128.Idx → EReal :=
  combine (m ((c : Thread nD τ).loc main_arg0)) (Cert.ReferenceIdeal.Read.val_main_v9 (F := Ideal) (m ((c : Thread nD τ).loc main_arg0)) (m ((c : Thread nD τ).loc main_arg2)) (m ((c : Thread nD τ).loc main_arg3))) (Cert.ReferenceIdeal.Read.val_main_v12 (F := Ideal) (m ((c : Thread nD τ).loc main_arg1)) (m ((c : Thread nD τ).loc main_arg3))) (Cert.ReferenceIdeal.Read.val_main_v16 (F := Ideal) (m ((c : Thread nD τ).loc main_arg3))) (m ((c : Thread nD τ).loc main_arg4)) (m ((c : Thread nD τ).loc main_arg5)) (m ((c : Thread nD τ).loc main_arg6))

/-! ## A window's block, read off any array -/

/-- Window 0 (128 columns): row `p` of the block at step `t` is row `4000 t + p` of the array. -/
theorem rows_w0 (X : S100000x128.Idx → EReal) (t : Fin cfg0.N) (p : Fin 4000) (k : Fin 128) (P : Fin 100000)
    (hP : P.val = 4000 * t.val + p.val) :
    ((cfg0.win 0).blk t).view.read (Elt Ideal) X (ix2 p k) = X (ix2 P k) := by
  obtain ⟨e00, e01, e10, e11, e20, e21, e30, e31, e40, e41, e50, e51, e60, e61, e70, e80, e81⟩ := idx_facts t
  rw [View.read_apply]
  refine congrArg X ?_
  funext a
  apply Fin.ext
  match a with
  | ⟨0, _⟩ => show win0_0.index t (0 : Fin 2) * 4000 + 1 * p.val = P.val; rw [e00, hP]; omega
  | ⟨1, _⟩ => show win0_0.index t (1 : Fin 2) * 128 + 1 * k.val = k.val; rw [e01]; omega

/-- Window 1 (128 columns): the same rows. -/
theorem rows_w1 (X : S100000x128.Idx → EReal) (t : Fin cfg0.N) (p : Fin 4000) (k : Fin 128) (P : Fin 100000)
    (hP : P.val = 4000 * t.val + p.val) :
    ((cfg0.win 1).blk t).view.read (Elt Ideal) X (ix2 p k) = X (ix2 P k) := by
  obtain ⟨e00, e01, e10, e11, e20, e21, e30, e31, e40, e41, e50, e51, e60, e61, e70, e80, e81⟩ := idx_facts t
  rw [View.read_apply]
  refine congrArg X ?_
  funext a
  apply Fin.ext
  match a with
  | ⟨0, _⟩ => show win0_1.index t (0 : Fin 2) * 4000 + 1 * p.val = P.val; rw [e10, hP]; omega
  | ⟨1, _⟩ => show win0_1.index t (1 : Fin 2) * 128 + 1 * k.val = k.val; rw [e11]; omega

/-- Window 2 (32 columns): the same rows. -/
theorem rows_w2 (X : S100000x32.Idx → EReal) (t : Fin cfg0.N) (p : Fin 4000) (k : Fin 32) (P : Fin 100000)
    (hP : P.val = 4000 * t.val + p.val) :
    ((cfg0.win 2).blk t).view.read (Elt Ideal) X (ix2 p k) = X (ix2 P k) := by
  obtain ⟨e00, e01, e10, e11, e20, e21, e30, e31, e40, e41, e50, e51, e60, e61, e70, e80, e81⟩ := idx_facts t
  rw [View.read_apply]
  refine congrArg X ?_
  funext a
  apply Fin.ext
  match a with
  | ⟨0, _⟩ => show win0_2.index t (0 : Fin 2) * 4000 + 1 * p.val = P.val; rw [e20, hP]; omega
  | ⟨1, _⟩ => show win0_2.index t (1 : Fin 2) * 32 + 1 * k.val = k.val; rw [e21]; omega

/-- Window 3 (one column): the same rows. -/
theorem rows_w3 (X : S100000x1.Idx → EReal) (t : Fin cfg0.N) (p : Fin 4000) (k : Fin 1) (P : Fin 100000)
    (hP : P.val = 4000 * t.val + p.val) :
    ((cfg0.win 3).blk t).view.read (Elt Ideal) X (ix2 p k) = X (ix2 P k) := by
  obtain ⟨e00, e01, e10, e11, e20, e21, e30, e31, e40, e41, e50, e51, e60, e61, e70, e80, e81⟩ := idx_facts t
  rw [View.read_apply]
  refine congrArg X ?_
  funext a
  apply Fin.ext
  match a with
  | ⟨0, _⟩ => show win0_3.index t (0 : Fin 2) * 4000 + 1 * p.val = P.val; rw [e30, hP]; omega
  | ⟨1, _⟩ => show win0_3.index t (1 : Fin 2) * 1 + 1 * k.val = k.val; rw [e31]; omega

/-- Window 4 holds its 128 × 128 array whole at every step. -/
theorem whole_w4 (X : S128x128.Idx → EReal) (t : Fin cfg0.N) (k : Fin 128) (q : Fin 128) :
    ((cfg0.win 4).blk t).view.read (Elt Ideal) X (ix2 k q) = X (ix2 k q) := by
  obtain ⟨e00, e01, e10, e11, e20, e21, e30, e31, e40, e41, e50, e51, e60, e61, e70, e80, e81⟩ := idx_facts t
  rw [View.read_apply]
  refine congrArg X ?_
  funext a
  apply Fin.ext
  match a with
  | ⟨0, _⟩ => show win0_4.index t (0 : Fin 2) * 128 + 1 * k.val = k.val; rw [e40]; omega
  | ⟨1, _⟩ => show win0_4.index t (1 : Fin 2) * 128 + 1 * q.val = q.val; rw [e41]; omega

/-- Window 5 holds its 128 × 128 array whole at every step. -/
theorem whole_w5 (X : S128x128.Idx → EReal) (t : Fin cfg0.N) (k : Fin 128) (q : Fin 128) :
    ((cfg0.win 5).blk t).view.read (Elt Ideal) X (ix2 k q) = X (ix2 k q) := by
  obtain ⟨e00, e01, e10, e11, e20, e21, e30, e31, e40, e41, e50, e51, e60, e61, e70, e80, e81⟩ := idx_facts t
  rw [View.read_apply]
  refine congrArg X ?_
  funext a
  apply Fin.ext
  match a with
  | ⟨0, _⟩ => show win0_5.index t (0 : Fin 2) * 128 + 1 * k.val = k.val; rw [e50]; omega
  | ⟨1, _⟩ => show win0_5.index t (1 : Fin 2) * 128 + 1 * q.val = q.val; rw [e51]; omega

/-- Window 6 holds its 32 × 128 array whole at every step. -/
theorem whole_w6 (X : S32x128.Idx → EReal) (t : Fin cfg0.N) (k : Fin 32) (q : Fin 128) :
    ((cfg0.win 6).blk t).view.read (Elt Ideal) X (ix2 k q) = X (ix2 k q) := by
  obtain ⟨e00, e01, e10, e11, e20, e21, e30, e31, e40, e41, e50, e51, e60, e61, e70, e80, e81⟩ := idx_facts t
  rw [View.read_apply]
  refine congrArg X ?_
  funext a
  apply Fin.ext
  match a with
  | ⟨0, _⟩ => show win0_6.index t (0 : Fin 2) * 32 + 1 * k.val = k.val; rw [e60]; omega
  | ⟨1, _⟩ => show win0_6.index t (1 : Fin 2) * 128 + 1 * q.val = q.val; rw [e61]; omega

/-- Window 7 holds its 128-entry array whole at every step. -/
theorem whole_w7 (X : S128.Idx → EReal) (t : Fin cfg0.N) (q : Fin 128) :
    ((cfg0.win 7).blk t).view.read (Elt Ideal) X (ix1 q) = X (ix1 q) := by
  obtain ⟨e00, e01, e10, e11, e20, e21, e30, e31, e40, e41, e50, e51, e60, e61, e70, e80, e81⟩ := idx_facts t
  rw [View.read_apply]
  refine congrArg X ?_
  funext a
  apply Fin.ext
  match a with
  | ⟨0, _⟩ => show win0_7.index t (0 : Fin 1) * 128 + 1 * q.val = q.val; rw [e70]; omega

/-! ## What each block holds -/

/-- Row `p` of the feature block at step `t` is row `4000 t + p` of the features. -/
theorem blk_feat (c : Dev nD) (t : Fin cfg0.N) (p : Fin 4000) (k : Fin 128) (P : Fin 100000) (hP : P.val = 4000 * t.val + p.val) :
    (iblk m c 0 t : Vec Ideal S4000x128 .f32) (ix2 p k) = ((m ((c : Thread nD τ).loc main_arg0)) : S100000x128.Idx → EReal) (ix2 P k) := by
  have e : iblk m c 0 t = ((cfg0.win 0).blk t).view.read (Elt Ideal) (V m c main_arg0 : S100000x128.Idx → EReal) := rfl
  rw [e, V_main_arg0 m c]
  exact rows_w0 _ t p k P hP

/-- Row `p` of the block of neighbour-feature sums at step `t` is row `4000 t + p` of the sums. -/
theorem blk_sumSrc (c : Dev nD) (t : Fin cfg0.N) (p : Fin 4000) (k : Fin 128) (P : Fin 100000) (hP : P.val = 4000 * t.val + p.val) :
    (iblk m c 1 t : Vec Ideal S4000x128 .f32) (ix2 p k) = ((Cert.ReferenceIdeal.Read.val_main_v9 (F := Ideal) (m ((c : Thread nD τ).loc main_arg0)) (m ((c : Thread nD τ).loc main_arg2)) (m ((c : Thread nD τ).loc main_arg3))) : S100000x128.Idx → EReal) (ix2 P k) := by
  have e : iblk m c 1 t = ((cfg0.win 1).blk t).view.read (Elt Ideal) (V m c main_call0_v9 : S100000x128.Idx → EReal) := rfl
  rw [e, HostVals.V_sumSrc m c]
  exact rows_w1 _ t p k P hP

/-- Row `p` of the block of edge-feature sums at step `t` is row `4000 t + p` of the sums. -/
theorem blk_sumEdge (c : Dev nD) (t : Fin cfg0.N) (p : Fin 4000) (k : Fin 32) (P : Fin 100000) (hP : P.val = 4000 * t.val + p.val) :
    (iblk m c 2 t : Vec Ideal S4000x32 .f32) (ix2 p k) = ((Cert.ReferenceIdeal.Read.val_main_v12 (F := Ideal) (m ((c : Thread nD τ).loc main_arg1)) (m ((c : Thread nD τ).loc main_arg3))) : S100000x32.Idx → EReal) (ix2 P k) := by
  have e : iblk m c 2 t = ((cfg0.win 2).blk t).view.read (Elt Ideal) (V m c main_call0_v12 : S100000x32.Idx → EReal) := rfl
  rw [e, HostVals.V_sumEdge m c]
  exact rows_w2 _ t p k P hP

/-- Row `p` of the degree block at step `t` is the degree of node `4000 t + p`. -/
theorem blk_deg (c : Dev nD) (t : Fin cfg0.N) (p : Fin 4000) (P : Fin 100000) (hP : P.val = 4000 * t.val + p.val) :
    (iblk m c 3 t : Vec Ideal S4000x1 .f32) (ix2 p (0 : Fin 1)) = ((Cert.ReferenceIdeal.Read.val_main_v16 (F := Ideal) (m ((c : Thread nD τ).loc main_arg3))) : S100000.Idx → EReal) (ix1 P) := by
  have e : iblk m c 3 t = ((cfg0.win 3).blk t).view.read (Elt Ideal) (V m c main_call0_v17 : S100000x1.Idx → EReal) := rfl
  rw [e, rows_w3 _ t p (0 : Fin 1) P hP]
  exact HostVals.V_degCol_at m c P

/-- Every step holds the self weights whole. -/
theorem blk_wself (c : Dev nD) (t : Fin cfg0.N) (k q : Fin 128) :
    (iblk m c 4 t : Vec Ideal S128x128 .f32) (ix2 k q) = ((m ((c : Thread nD τ).loc main_arg4)) : S128x128.Idx → EReal) (ix2 k q) := by
  have e : iblk m c 4 t = ((cfg0.win 4).blk t).view.read (Elt Ideal) (V m c main_arg4 : S128x128.Idx → EReal) := rfl
  rw [e, V_main_arg4 m c]
  exact whole_w4 _ t k q

/-- Every step holds rows 0 to 127 of the neighbour weights. -/
theorem blk_wfeat (c : Dev nD) (t : Fin cfg0.N) (k q : Fin 128) :
    (iblk m c 5 t : Vec Ideal S128x128 .f32) (ix2 k q)
      = ((m ((c : Thread nD τ).loc main_arg5)) : S160x128.Idx → EReal) (ix2 (⟨k.val, Nat.lt_of_lt_of_le k.isLt (by decide)⟩ : Fin 160) q) := by
  have e : iblk m c 5 t = ((cfg0.win 5).blk t).view.read (Elt Ideal) (V m c main_call0_v18 : S128x128.Idx → EReal) := rfl
  rw [e, whole_w5 _ t k q]
  exact HostVals.V_wFeat_at m c k q

/-- Every step holds rows 128 to 159 of the neighbour weights. -/
theorem blk_wedge (c : Dev nD) (t : Fin cfg0.N) (k : Fin 32) (q : Fin 128) :
    (iblk m c 6 t : Vec Ideal S32x128 .f32) (ix2 k q)
      = ((m ((c : Thread nD τ).loc main_arg5)) : S160x128.Idx → EReal) (ix2 (⟨128 + k.val, by have := k.isLt; omega⟩ : Fin 160) q) := by
  have e : iblk m c 6 t = ((cfg0.win 6).blk t).view.read (Elt Ideal) (V m c main_call0_v19 : S32x128.Idx → EReal) := rfl
  rw [e, whole_w6 _ t k q]
  exact HostVals.V_wEdge_at m c k q

/-- Every step holds the bias whole. -/
theorem blk_bias (c : Dev nD) (t : Fin cfg0.N) (q : Fin 128) :
    (iblk m c 7 t : Vec Ideal S128 .f32) (ix1 q) = ((m ((c : Thread nD τ).loc main_arg6)) : S128.Idx → EReal) (ix1 q) := by
  have e : iblk m c 7 t = ((cfg0.win 7).blk t).view.read (Elt Ideal) (V m c main_arg6 : S128.Idx → EReal) := rfl
  rw [e, V_main_arg6 m c]
  exact whole_w7 _ t q

/-! ## What a step writes back, and the array after the run -/

/-- WHAT STEP `t` WRITES BACK is block `t` of `result`. -/
theorem flushed_eq (c : Dev nD) (t : Fin cfg0.N) :
    (dats m 0 c).flushed 8 t = ((cfg0.win 8).blk t).view.read (Elt Ideal) (result m c) := by
  rw [Value.flushed8]
  unfold out0_8
  rw [View.canon_unit_zero hz2]
  simp only [View.ld_unit_zero (S := S4000x128) hz2, View.ld_unit_zero (S := S4000x32) hz2, View.ld_unit_zero (S := S4000x1) hz2,
    View.ld_unit_zero (S := S128x128) hz2, View.ld_unit_zero (S := S32x128) hz2, View.ld_unit_zero (S := S128) hz1]
  funext j
  have ht : t.val < 25 := lt_of_lt_of_eq t.isLt (N_0 : cfg0.N = 25)
  have hj0 : (j 0).val < 4000 := (j 0).isLt
  have hj1 : (j 1).val < 128 := (j 1).isLt
  obtain ⟨e00, e01, e10, e11, e20, e21, e30, e31, e40, e41, e50, e51, e60, e61, e70, e80, e81⟩ := idx_facts t
  obtain ⟨P, hP⟩ : ∃ P : Fin 100000, P.val = 4000 * t.val + (j 0).val := ⟨⟨4000 * t.val + (j 0).val, by omega⟩, rfl⟩
  show k0_pay1 (iblk m c 3 t) (iblk m c 0 t) (iblk m c 1 t) (iblk m c 2 t) (iblk m c 4 t) (iblk m c 5 t) (iblk m c 6 t) (iblk m c 7 t) j = result m c (((cfg0.win 8).blk t).view.emb j)
  refine (congrArg (k0_pay1 (iblk m c 3 t) (iblk m c 0 t) (iblk m c 1 t) (iblk m c 2 t) (iblk m c 4 t) (iblk m c 5 t) (iblk m c 6 t) (iblk m c 7 t)) (eq_ix2 (n0 := 4000) (n1 := 128) j)).trans ?_
  refine (Body.step_is_combine (m ((c : Thread nD τ).loc main_arg0)) (Cert.ReferenceIdeal.Read.val_main_v9 (F := Ideal) (m ((c : Thread nD τ).loc main_arg0)) (m ((c : Thread nD τ).loc main_arg2)) (m ((c : Thread nD τ).loc main_arg3))) (Cert.ReferenceIdeal.Read.val_main_v12 (F := Ideal) (m ((c : Thread nD τ).loc main_arg1)) (m ((c : Thread nD τ).loc main_arg3))) (Cert.ReferenceIdeal.Read.val_main_v16 (F := Ideal) (m ((c : Thread nD τ).loc main_arg3))) (m ((c : Thread nD τ).loc main_arg4)) (m ((c : Thread nD τ).loc main_arg5)) (m ((c : Thread nD τ).loc main_arg6))
    (iblk m c 0 t) (iblk m c 1 t) (iblk m c 2 t) (iblk m c 3 t) (iblk m c 4 t) (iblk m c 5 t) (iblk m c 6 t) (iblk m c 7 t) (j 0) (j 1) P
    (fun k => blk_feat m c t (j 0) k P hP) (fun k => blk_sumSrc m c t (j 0) k P hP) (fun k => blk_sumEdge m c t (j 0) k P hP)
    (blk_deg m c t (j 0) P hP) (fun k => blk_wself m c t k (j 1)) (fun k => blk_wfeat m c t k (j 1))
    (fun k => blk_wedge m c t k (j 1)) (blk_bias m c t (j 1))).trans ?_
  show combineAt _ _ _ _ _ _ _ P (j 1) = combineAt _ _ _ _ _ _ _ _ _
  congr 1 <;> apply Fin.ext
  · show P.val = win0_8.index t (0 : Fin 2) * 4000 + 1 * (j 0).val
    rw [e80, hP]; omega
  · show (j 1).val = win0_8.index t (1 : Fin 2) * 128 + 1 * (j 1).val
    rw [e81]; omega

/-- An index of the array is in step `t`'s block iff each coordinate is in the block's range on its axis. -/
theorem mem_blk (t : Fin cfg0.N) (i : S100000x128.Idx) :
    i ∈ ((cfg0.win 8).blk t).view.set ↔ ∀ a : Fin 2, win0_8.index t a * S4000x128.size a ≤ (i a).val ∧ (i a).val < win0_8.index t a * S4000x128.size a + S4000x128.size a := by
  show i ∈ ((View.whole main_v0).slice (win0_8.rect t)).set ↔ _
  rw [View.set_slice_whole, Rect.mem_set_unit]
  exact Iff.rfl

/-- Node `n` is in the block of step `n / 4000`: the 25 blocks cover the array. -/
theorem cover (i : S100000x128.Idx) :
    ∃ t : Fin cfg0.N, (cfg0.win 8).flush t = true ∧ i ∈ ((cfg0.win 8).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨e00, e01, e10, e11, e20, e21, e30, e31, e40, e41, e50, e51, e60, e61, e70, e80, e81⟩ := idx_facts t
  refine ⟨t, flush0_8 t, ?_⟩
  rw [mem_blk]
  intro a
  match a with
  | ⟨0, _⟩ =>
    show win0_8.index t (0 : Fin 2) * 4000 ≤ (i 0).val ∧ (i 0).val < win0_8.index t (0 : Fin 2) * 4000 + 4000
    rw [e80, ht]; omega
  | ⟨1, _⟩ =>
    show win0_8.index t (1 : Fin 2) * 128 ≤ (i 1).val ∧ (i 1).val < win0_8.index t (1 : Fin 2) * 128 + 128
    rw [e81]; omega

/-- THE ARRAY after the run is `result`. -/
theorem final (c : Dev nD) : (dats m 0 c).arrAt 8 cfg0.N = result m c :=
  (dats m 0 c).arrAt_eq_of_cover 8 (result m c) (fun t _ => flushed_eq m c t) cover

/-- The run, read: the result array at `result` of the launch contents, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Blocks

end
-- ==== Proof.lean ====
/-
  An edge-conditioned graph layer with mean aggregation, on 100000 nodes and 1600000 edges: for every node, its own
  features times the self weights, plus the mean over its in-edges of the source node's features joined with the edge's
  features times the neighbour weights, plus a bias; a node without in-edges takes zero for the mean.

  Both programs first form, by the same gather and the same three scatter-adds over the destination indices, the sum
  of source features, the sum of edge features and the count of in-edges of every node. From there the kernel, 4000 nodes
  per grid step, multiplies the two sums by the reciprocal of the count clamped below at one, and adds three matrix
  products: features by self weights, scaled source sums by rows 0 to 127 of the neighbour weights, scaled edge sums
  by rows 128 to 159. The reference divides the two sums by the clamped count, joins the quotients into 160 columns,
  and adds two matrix products: features by self weights, joined means by all 160 rows of the neighbour weights.

  On the extended reals these are one function of the arguments (`combine`, Proof/Spec.lean): a quotient by a
  divisor that is not zero is the product with the divisor's reciprocal — the clamped count is at least one whatever
  the count is —, and a sum over the 160 joined columns is the sum over the first 128 plus the sum over the last 32.
  Neither law asks any summand to be finite, so the precondition is not used. The reference is `combine` of its
  arrays (Proof/RefSide.lean); a grid step stores `combine` at its 4000 nodes (Proof/Payload.lean), from the arrays the
  grid finds (Proof/HostVals.lean), and the 25 steps cover the result (Proof/Blocks.lean). The kernel's idealization
  rewrote nothing, so there is nothing to preserve.
-/
import proofs.«430597_j26053271617546_3_alg».proof.Defs
import proofs.«430597_j26053271617546_3_alg».proof.Proof.Gen.Kernel
import proofs.«430597_j26053271617546_3_alg».proof.Proof.Gen.Kernel.Skeleton
import proofs.«430597_j26053271617546_3_alg».proof.Proof.Gen.Kernel.Launch
import proofs.«430597_j26053271617546_3_alg».proof.Proof.Gen.Kernel.Points
import proofs.«430597_j26053271617546_3_alg».proof.Proof.Gen.Kernel.Frame
import proofs.«430597_j26053271617546_3_alg».proof.Proof.Gen.KernelIdeal
import proofs.«430597_j26053271617546_3_alg».proof.Proof.Gen.KernelIdeal.Skeleton
import proofs.«430597_j26053271617546_3_alg».proof.Proof.Gen.KernelIdeal.Launch
import proofs.«430597_j26053271617546_3_alg».proof.Proof.Gen.KernelIdeal.Points
import proofs.«430597_j26053271617546_3_alg».proof.Proof.Gen.KernelIdeal.Frame
import proofs.«430597_j26053271617546_3_alg».proof.Proof.Gen.ReferenceIdeal
import proofs.«430597_j26053271617546_3_alg».proof.Proof.Gen.Pre_finite_inputs
import proofs.«430597_j26053271617546_3_alg».proof.Proof.Gen.KernelIdeal.Value
import proofs.«430597_j26053271617546_3_alg».proof.Proof.Gen.ReferenceIdeal.Run
import proofs.«430597_j26053271617546_3_alg».proof.Proof.Gen.ReferenceIdeal.Read
import proofs.«430597_j26053271617546_3_alg».proof.Proof.Spec
import proofs.«430597_j26053271617546_3_alg».proof.Proof.RefSide
import proofs.«430597_j26053271617546_3_alg».proof.Proof.Blocks
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result array at `combine` of the arguments:
    the kernel by its 25 blocks, the reference by its run read index by index. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefValue.ref_is_combine]
  obtain ⟨h0, h1, h2, h3, h4, h5, h6⟩ := hagree c
  rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
